-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg8 : FVec F S6 .f32) (main_v33 : IVec S_ 1) : IVec S_ 1 :=
  let main_v34 : FVec F S6 .f32 := Host.absf main_arg8
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  main_v38

def fn_part1 {F : FTy → Type} [FloatOps F] (main_arg5 : FVec F S128 .f32) (main_arg6 : FVec F S128x128 .f32) (main_arg7 : FVec F S128x6 .f32) (main_arg8 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x6 .f32 := Host.absf main_arg7
  let main_cst_10 : FVec F S_ .f32 := constant S_ .f32 0x7F800000#32
  let main_v30 : FVec F S128x6 .f32 := broadcastInDim S128x6 ![] bcast_S_S128x6 main_cst_10
  let main_v31 : IVec S128x6 1 := cmpf .olt main_v29 main_v30
  let main_c_11 : IVec S_ 1 := constantI S_ 1 1#1
  let main_v32 : IVec S_ 1 := (fun x v => Host.reduce IntOp.andi x v reducesTo_S128x6_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128x6 .f32) (main_arg8 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x128 : Shape := ⟨2, ![1, 128]⟩
abbrev S2000x128 : Shape := ⟨2, ![2000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x6 : Shape := ⟨2, ![1, 6]⟩
abbrev S100000x6 : Shape := ⟨2, ![100000, 6]⟩
abbrev S2000x6 : Shape := ⟨2, ![2000, 6]⟩
abbrev S2000 : Shape := ⟨1, ![2000]⟩
abbrev S2000x1 : Shape := ⟨2, ![2000, 1]⟩

abbrev nBuf : Space → Nat
  | .hbm => 44
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x6, .f32⟩
  | .hbm, ⟨8, _⟩ => ⟨S6, .f32⟩
  | .hbm, ⟨9, _⟩ => ⟨S1x128, .f32⟩
  | .hbm, ⟨10, _⟩ => ⟨S100000x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S1x6, .f32⟩
  | .hbm, ⟨43, _⟩ => ⟨S100000x6, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S128x6, .f32⟩
  | .local _ .vmem, ⟨14, _⟩ => ⟨S1x6, .f32⟩
  | .local _ .vmem, ⟨15, _⟩ => ⟨S2000x6, .f32⟩
  | .local _ .vmem, ⟨16, _⟩ => ⟨S2000x6, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x6 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x6 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x6 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S6_S1x6 : S6.ShapeCasts S1x6
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  inb_S128x6_S128x6_0_0 : ∀ a, (![0, 0] : Fin 2 → Nat) a + S128x6.size a ≤ S128x6.size a
  h_S128x6 : 0 < S128x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2000x6 : S1x6.Broadcasts S2000x6
  inb_S2000x6_S2000x6_0_0 : ∀ a, (![0, 0] : Fin 2 → Nat) a + S2000x6.size a ≤ S2000x6.size a
  h_S2000x6 : 0 < S2000x6.numel
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x6_S2000x6_1_0_0_1_n_n_wf : DotDims.WF S2000x128 S128x6 S2000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x6.size a ≤ S128x6.size a
  hwx1_5 : ∀ i : grid1.Coords, EltTy.bits .f32 = 32 ∨ (Rect.block (s := S128x6) S128x6.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x6.size a ≤ S1x6.size a
  hwx1_6 : ∀ i : grid1.Coords, EltTy.bits .f32 = 32 ∨ (Rect.block (s := S1x6) S1x6.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x6.size a ≤ S100000x6.size a
  hwx1_7 : ∀ i : grid1.Coords, EltTy.bits .f32 = 32 ∨ (Rect.block (s := S100000x6) S2000x6.size (cc1_transform_7 i) (hinb1_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x6_S2000x6_1_0_0_1_n_n : DotDims S2000x128 S128x6 S2000x6 where
  lhsContracting := [1]
  rhsContracting := [0]
  lhsNonContracting := [0]
  rhsNonContracting := [1]
  lhsBatch := []
  rhsBatch := []
  wf := dot_S2000x128_S128x6_S2000x6_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x6.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x6.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S2000x6.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x6 : Shape := ⟨2, ![100000, 6]⟩
abbrev S1x6 : Shape := ⟨2, ![1, 6]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x6, .f32⟩
  | .hbm, ⟨8, _⟩ => ⟨S6, .f32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S_, .f32⟩
  | .hbm, ⟨14, _⟩ => ⟨S100000x128, .f32⟩
  | .hbm, ⟨15, _⟩ => ⟨S100000x128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000, .f32⟩
  | .hbm, ⟨55, _⟩ => ⟨S100000x1, .f32⟩
  | .hbm, ⟨56, _⟩ => ⟨S100000x1, .f32⟩
  | .hbm, ⟨57, _⟩ => ⟨S_, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x6, .f32⟩
  | .hbm, ⟨67, _⟩ => ⟨S1x6, .f32⟩
  | .hbm, ⟨68, _⟩ => ⟨S100000x6, .f32⟩
  | .hbm, ⟨69, _⟩ => ⟨S100000x6, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_call2_v2 : Ref sig .tc := ⟨.hbm, 55, rfl⟩
abbrev main_v33 : Ref sig .tc := ⟨.hbm, 56, rfl⟩
abbrev main_cst_4 : Ref sig .tc := ⟨.hbm, 57, rfl⟩
abbrev main_call3_v0 : Ref sig .tc := ⟨.hbm, 58, rfl⟩
abbrev main_call3_v1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call4_cst : Ref sig .tc := ⟨.hbm, 63, rfl⟩
abbrev main_call4_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x6_S100000x6_1_0_0_1_n_n_wf : DotDims.WF S100000x128 S128x6 S100000x6 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x6_S100000x6_1_0_0_1_n_n : DotDims S100000x128 S128x6 S100000x6 where
  lhsContracting := [1]
  rhsContracting := [0]
  lhsNonContracting := [0]
  rhsNonContracting := [1]
  lhsBatch := []
  rhsBatch := []
  wf := dot_S100000x128_S128x6_S100000x6_1_0_0_1_n_n_wf

class Facts : Prop extends Facts₀ where

variable [Facts]
-- ==== Proof.Spec.lean ====
/-
  What the network computes, one node at a time, on the extended reals.

  A node has a feature row of 128 entries. The projection sends the row x to max(x · Wp + bp, 0). The layer then
  combines the mean of the neighbours' projected rows (a) with the node's own projected row (xr):
  o = (a · Wl + bl) + xr · Wr, divides o by max(‖o‖₂, ε) where ‖o‖₂ = √(Σⱼ oⱼ²) and ε is the float word
  0x2B8CBCCC read as it stands, clamps at 0 from below, and applies the classifier h · Wf + bf (6 classes).

  The two arrays of the network are these row functions applied to each of the 100000 rows. Zero and ε are kept as
  the words both programs print; nothing here evaluates them.
-/
import Idealize.ShloMosaic.PureOps.Ideal
import Idealize.ShloMosaic.Lib.ValueIdx

noncomputable section

open scoped BigOperators
open Idealize.ShloMosaic Idealize.ShloMosaic.ValueIdx

namespace Cert.Spec

/-- The zero word of the clamps. -/
abbrev zeroW : EReal := Ideal.ofBits .f32 0x00000000#32
/-- The floor ε of the norm, as the word both programs carry. -/
abbrev epsW : EReal := Ideal.ofBits .f32 0x2B8CBCCC#32

/-- x · W + b at column j, for a row x of 128 entries and a weight matrix with C columns. -/
def affRow {C : Nat} (x : Fin 128 → EReal) (W : (⟨2, ![128, C]⟩ : Shape).Idx → EReal) (b : Fin C → EReal) (j : Fin C) : EReal :=
  (∑ k : Fin 128, x k * W (ix2 k j)) + b j

/-- The projected row: max(x · Wp + bp, 0). -/
def projRow (x : Fin 128 → EReal) (Wp : (⟨2, ![128, 128]⟩ : Shape).Idx → EReal) (bp : Fin 128 → EReal) (j : Fin 128) : EReal :=
  max (affRow x Wp bp j) zeroW

/-- The combined row: (a · Wl + bl) + xr · Wr. -/
def combRow (a xr : Fin 128 → EReal) (Wl : (⟨2, ![128, 128]⟩ : Shape).Idx → EReal) (bl : Fin 128 → EReal)
    (Wr : (⟨2, ![128, 128]⟩ : Shape).Idx → EReal) (j : Fin 128) : EReal :=
  affRow a Wl bl j + ∑ k : Fin 128, xr k * Wr (ix2 k j)

/-- The divisor of a row: max(√(Σⱼ oⱼ²), ε). -/
def normRow (o : Fin 128 → EReal) : EReal :=
  max (Ideal.sqrt (∑ j : Fin 128, o j * o j)) epsW

/-- The normalised, clamped row: max(oⱼ / max(‖o‖₂, ε), 0). -/
def hidRow (o : Fin 128 → EReal) (j : Fin 128) : EReal :=
  max (Ideal.div (o j) (normRow o)) zeroW

/-- A node's logits from its two input rows. -/
def clsRow (a xr : Fin 128 → EReal) (Wl : (⟨2, ![128, 128]⟩ : Shape).Idx → EReal) (bl : Fin 128 → EReal)
    (Wr : (⟨2, ![128, 128]⟩ : Shape).Idx → EReal) (Wf : (⟨2, ![128, 6]⟩ : Shape).Idx → EReal) (bf : Fin 6 → EReal)
    (q : Fin 6) : EReal :=
  affRow (hidRow (combRow a xr Wl bl Wr)) Wf bf q

/-- Row r of an array of 128-entry rows. -/
abbrev rowOf {R : Nat} (A : (⟨2, ![R, 128]⟩ : Shape).Idx → EReal) (r : Fin R) : Fin 128 → EReal := fun k => A (ix2 r k)

/-- The projection of every row. -/
def projArr {R : Nat} (x : (⟨2, ![R, 128]⟩ : Shape).Idx → EReal) (Wp : (⟨2, ![128, 128]⟩ : Shape).Idx → EReal)
    (bp : Fin 128 → EReal) : (⟨2, ![R, 128]⟩ : Shape).Idx → EReal :=
  fun i => projRow (rowOf x ⟨(i 0).val, (i 0).isLt⟩) Wp bp ⟨(i 1).val, (i 1).isLt⟩

/-- The logits of every row. -/
def clsArr {R : Nat} (agg xp : (⟨2, ![R, 128]⟩ : Shape).Idx → EReal) (Wl : (⟨2, ![128, 128]⟩ : Shape).Idx → EReal)
    (bl : Fin 128 → EReal) (Wr : (⟨2, ![128, 128]⟩ : Shape).Idx → EReal) (Wf : (⟨2, ![128, 6]⟩ : Shape).Idx → EReal)
    (bf : Fin 6 → EReal) : (⟨2, ![R, 6]⟩ : Shape).Idx → EReal :=
  fun i => clsRow (rowOf agg ⟨(i 0).val, (i 0).isLt⟩) (rowOf xp ⟨(i 0).val, (i 0).isLt⟩) Wl bl Wr Wf bf ⟨(i 1).val, (i 1).isLt⟩

theorem projArr_apply {R : Nat} (x : (⟨2, ![R, 128]⟩ : Shape).Idx → EReal) (Wp : (⟨2, ![128, 128]⟩ : Shape).Idx → EReal)
    (bp : Fin 128 → EReal) (r : Fin R) (j : Fin 128) :
    projArr x Wp bp (ix2 r j) = projRow (rowOf x r) Wp bp j := rfl

theorem clsArr_apply {R : Nat} (agg xp : (⟨2, ![R, 128]⟩ : Shape).Idx → EReal) (Wl : (⟨2, ![128, 128]⟩ : Shape).Idx → EReal)
    (bl : Fin 128 → EReal) (Wr : (⟨2, ![128, 128]⟩ : Shape).Idx → EReal) (Wf : (⟨2, ![128, 6]⟩ : Shape).Idx → EReal)
    (bf : Fin 6 → EReal) (r : Fin R) (q : Fin 6) :
    clsArr agg xp Wl bl Wr Wf bf (ix2 r q) = clsRow (rowOf agg r) (rowOf xp r) Wl bl Wr Wf bf q := rfl

end Cert.Spec

end
-- ==== Proof.KernelHost.lean ====
/-
  What the arrays of the two regions hold when each region is entered, as functions of the launch memory.

  Before the first region @main only reshapes the projection's bias [128] to one row [1, 128]. Between the regions it
  computes, from the projected rows and the edge list, the mean of every node's incoming projected rows (the chain
  `midK`: slices of the edge list, negative indices wrapped, a gather of rows, two scatter-adds, the in-degree clamped
  at 1 from below, a division), and reshapes the two remaining biases to rows; it writes no argument array and leaves
  the projected rows where the first region put them. `midK` is never opened: the reference applies the same chain.
-/
import proofs.«165152_j3324304687696_1_alg».proof.Proof.Gen.KernelIdeal.Frame
import Idealize.ShloMosaic.Lib.StableHlo.Run
import Idealize.ShloMosaic.PureOps.Ideal

set_option maxRecDepth 16384
noncomputable section
open Idealize.ShloMosaic Idealize.ShloMosaic.TcCoe Idealize.SL.Sem Idealize.ShloMosaic.StableHlo
open Cert.KernelIdeal Cert.KernelIdeal.Gen

namespace Cert.KernelIdeal.HostReads

/-- The sum, per node, of the projected rows of its incoming edges' sources (negative source indices wrapped once). -/
def sumIn (xp : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (shapeCast _ (extractStridedSlice S1x1600000 ![1, 0] ei slices_S2x1600000_S1x1600000_1_0) shapeCasts_S1x1600000_S1600000))
    (Host.gather gather_S100000x128_S1600000x1_S1600000x128_1_0_n_n_0_1_1128 xp
      (broadcastInDim S1600000x1 ![0] bcast_S1600000_S1600000x1_0
        (select (cmpi .slt (shapeCast _ (extractStridedSlice S1x1600000 ![0, 0] ei slices_S2x1600000_S1x1600000_0_0) shapeCasts_S1x1600000_S1600000) (broadcastInDim S1600000 ![] bcast_S_S1600000 (constantI S_ 32 0#32)))
          (addi (shapeCast _ (extractStridedSlice S1x1600000 ![0, 0] ei slices_S2x1600000_S1x1600000_0_0) shapeCasts_S1x1600000_S1600000) (broadcastInDim S1600000 ![] bcast_S_S1600000 (constantI S_ 32 100000#32)))
          (shapeCast _ (extractStridedSlice S1x1600000 ![0, 0] ei slices_S2x1600000_S1x1600000_0_0) shapeCasts_S1x1600000_S1600000))))

/-- The number of incoming edges of each node. -/
def degIn (ei : IVec S2x1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (shapeCast _ (extractStridedSlice S1x1600000 ![1, 0] ei slices_S2x1600000_S1x1600000_1_0) shapeCasts_S1x1600000_S1600000))
    (broadcastInDim S1600000 ![] bcast_S_S1600000 (constant S_ .f32 0x3F800000#32))

/-- From the projected rows and the edge list to the mean of each node's incoming rows: the sum divided by the
    in-degree clamped at 1 from below. -/
def midK (xp : FVec Ideal S100000x128 .f32) (ei : IVec S2x1600000 32) : FVec Ideal S100000x128 .f32 :=
  Host.divf (sumIn xp ei)
    (broadcastInDim S100000x128 ![0, 1] bcast_S100000x1_S100000x128_0_1
      (broadcastInDim S100000x1 ![0] bcast_S100000_S100000x1_0
        (maximumf (broadcastInDim S100000 ![] bcast_S_S100000 (id (constant S_ .f32 0x3F800000#32))) (degIn ei))))

variable (m : (ℓ : Loc nD τ sig) → Buf (Elt Ideal) ℓ) (ρ : Dev nD → PrngReg)

/-! ## Entering the projection region -/

theorem V1_x (c : Dev nD) : V1 m ρ c main_arg0 = m ((c : Thread nD τ).loc main_arg0) := by
  show StableHlo.after hostOps0 (W0 m ρ c) (Proc.devRef .tc main_arg0) = _
  after_results

theorem V1_w (c : Dev nD) : V1 m ρ c main_arg2 = m ((c : Thread nD τ).loc main_arg2) := by
  show StableHlo.after hostOps0 (W0 m ρ c) (Proc.devRef .tc main_arg2) = _
  after_results

theorem V1_bias (c : Dev nD) :
    V1 m ρ c main_v0 = shapeCast S1x128 (m ((c : Thread nD τ).loc main_arg3)) shapeCasts_S128_S1x128 := by
  show StableHlo.after hostOps0 (W0 m ρ c) (Proc.devRef .tc main_v0) = _
  after_results
  rfl

/-! ## Leaving it: the edge list and the biases are still the launch's -/

theorem V2_edges (c : Dev nD) : V2 m ρ c main_arg1 = m ((c : Thread nD τ).loc main_arg1) :=
  (W2_of_ne m ρ c main_arg1 (by decide)).trans (by
    show StableHlo.after hostOps0 (W0 m ρ c) (Proc.devRef .tc main_arg1) = _
    after_results)

theorem V2_bl (c : Dev nD) : V2 m ρ c main_arg5 = m ((c : Thread nD τ).loc main_arg5) :=
  (W2_of_ne m ρ c main_arg5 (by decide)).trans (by
    show StableHlo.after hostOps0 (W0 m ρ c) (Proc.devRef .tc main_arg5) = _
    after_results)

theorem V2_bf (c : Dev nD) : V2 m ρ c main_arg8 = m ((c : Thread nD τ).loc main_arg8) :=
  (W2_of_ne m ρ c main_arg8 (by decide)).trans (by
    show StableHlo.after hostOps0 (W0 m ρ c) (Proc.devRef .tc main_arg8) = _
    after_results)

/-! ## Entering the classifier region -/

/-! ### The middle stretches, one at a time, from ANY contents -/

/-- The last five operations: the division by the broadcast clamped in-degree. -/
theorem last_stretch (Y : Valuation τ sig (Elt Ideal)) :
    @Eq (FVec Ideal S100000x128 .f32) (StableHlo.after hostOps1_2 Y (Proc.devRef .tc main_v23))
      (Host.divf (Y (Proc.devRef .tc main_v15) : FVec Ideal S100000x128 .f32)
          (broadcastInDim S100000x128 ![0, 1] bcast_S100000x1_S100000x128_0_1
            (broadcastInDim S100000x1 ![0] bcast_S100000_S100000x1_0 (Y (Proc.devRef .tc main_v20) : FVec Ideal S100000 .f32)))) := by
  after_results_simp

/-- The clamp's three operations leave the sum alone … -/
theorem clamp_stretch_sum (Y : Valuation τ sig (Elt Ideal)) :
    StableHlo.after hostOps1_1 Y (Proc.devRef .tc main_v15) = Y (Proc.devRef .tc main_v15) := by
  after_results_simp

/-- … and clamp the in-degree at the constant it is handed. -/
theorem clamp_stretch_deg (Y : Valuation τ sig (Elt Ideal)) :
    @Eq (FVec Ideal S100000 .f32) (StableHlo.after hostOps1_1 Y (Proc.devRef .tc main_v20))
      (maximumf (broadcastInDim S100000 ![] bcast_S_S100000 (id (Y (Proc.devRef .tc main_cst_3) : FVec Ideal S_ .f32)))
          (Y (Proc.devRef .tc main_v19) : FVec Ideal S100000 .f32)) := by
  after_results_simp
  rfl

set_option maxHeartbeats 4000000 in
/-- The first 24 operations: the sum of incoming rows … -/
theorem first_stretch_sum (X : Valuation τ sig (Elt Ideal)) :
    StableHlo.after hostOps1 X (Proc.devRef .tc main_v15) = sumIn (X (Proc.devRef .tc main_v1)) (X (Proc.devRef .tc main_arg1)) := by
  after_results_simp
  rfl

set_option maxHeartbeats 4000000 in
/-- … the in-degree … -/
theorem first_stretch_deg (X : Valuation τ sig (Elt Ideal)) :
    StableHlo.after hostOps1 X (Proc.devRef .tc main_v19) = degIn (X (Proc.devRef .tc main_arg1)) := by
  after_results_simp
  rfl

set_option maxHeartbeats 4000000 in
/-- … and the constant 1 the clamp is handed. -/
theorem first_stretch_one (X : Valuation τ sig (Elt Ideal)) :
    @Eq (FVec Ideal S_ .f32) (StableHlo.after hostOps1 X (Proc.devRef .tc main_cst_3)) (constant (F := Ideal) S_ .f32 0x3F800000#32) := by
  after_results_simp

/-- The aggregated rows: the middle chain of the projected rows and the edge list. -/
theorem V5_agg (c : Dev nD) : V5 m ρ c main_v23 = midK (V2 m ρ c main_v1) (V2 m ρ c main_arg1) := by
  show StableHlo.after hostOps1_2 (StableHlo.after hostOps1_1 (StableHlo.after hostOps1 (W2 m ρ c))) (Proc.devRef .tc main_v23)
    = midK (W2 m ρ c (Proc.devRef .tc main_v1)) (W2 m ρ c (Proc.devRef .tc main_arg1))
  rw [last_stretch, clamp_stretch_sum, clamp_stretch_deg, first_stretch_sum, first_stretch_deg, first_stretch_one]
  rfl

set_option maxHeartbeats 4000000 in
/-- The projected rows are where the first region left them. -/
theorem V5_xp (c : Dev nD) : V5 m ρ c main_v1 = V2 m ρ c main_v1 := by
  show StableHlo.after hostOps1_2 (StableHlo.after hostOps1_1 (StableHlo.after hostOps1 (W2 m ρ c))) (Proc.devRef .tc main_v1)
    = W2 m ρ c (Proc.devRef .tc main_v1)
  generalize W2 m ρ c = X
  after_results_simp

set_option maxHeartbeats 4000000 in
theorem V5_bl (c : Dev nD) :
    V5 m ρ c main_v24 = shapeCast S1x128 (V2 m ρ c main_arg5) shapeCasts_S128_S1x128 := by
  show StableHlo.after hostOps1_2 (StableHlo.after hostOps1_1 (StableHlo.after hostOps1 (W2 m ρ c))) (Proc.devRef .tc main_v24)
    = shapeCast S1x128 (W2 m ρ c (Proc.devRef .tc main_arg5)) shapeCasts_S128_S1x128
  generalize W2 m ρ c = X
  after_results_simp
  rfl

set_option maxHeartbeats 4000000 in
theorem V5_bf (c : Dev nD) :
    V5 m ρ c main_v25 = shapeCast S1x6 (V2 m ρ c main_arg8) shapeCasts_S6_S1x6 := by
  show StableHlo.after hostOps1_2 (StableHlo.after hostOps1_1 (StableHlo.after hostOps1 (W2 m ρ c))) (Proc.devRef .tc main_v25)
    = shapeCast S1x6 (W2 m ρ c (Proc.devRef .tc main_arg8)) shapeCasts_S6_S1x6
  generalize W2 m ρ c = X
  after_results_simp
  rfl

/-- The three weight matrices of the classifier region are the launch's: the fold after the region walks back to the
    launch memory at an argument, and the region itself does not touch them. -/
theorem V5_wl (c : Dev nD) : V5 m ρ c main_arg4 = m ((c : Thread nD τ).loc main_arg4) :=
  ((W6_arr m ρ c 2).trans (((dat1 (V5 m ρ) c).arrAt_in 2 rfl _).trans (A_eq1 (V5 m ρ) c 2))).symm.trans (W6_main_arg4 m ρ c)

theorem V5_wr (c : Dev nD) : V5 m ρ c main_arg6 = m ((c : Thread nD τ).loc main_arg6) :=
  ((W6_arr m ρ c 4).trans (((dat1 (V5 m ρ) c).arrAt_in 4 rfl _).trans (A_eq1 (V5 m ρ) c 4))).symm.trans (W6_main_arg6 m ρ c)

theorem V5_wf (c : Dev nD) : V5 m ρ c main_arg7 = m ((c : Thread nD τ).loc main_arg7) :=
  ((W6_arr m ρ c 5).trans (((dat1 (V5 m ρ) c).arrAt_in 5 rfl _).trans (A_eq1 (V5 m ρ) c 5))).symm.trans (W6_main_arg7 m ρ c)

end Cert.KernelIdeal.HostReads
end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Region0Value.lean ====
/-
  The projection region as one function of the arrays it is entered with.

  The region visits 50 points; at point t it reads rows 2000·t … 2000·t + 1999 of the feature array, the whole weight
  matrix and the bias row, and writes rows 2000·t … 2000·t + 1999 of the output. An entry (p, j) of the block it writes is
  max(Σₖ x(2000·t + p, k) · Wp(k, j) + bp(0, j), 0): the format changes are the identity on the extended reals and the
  matrix product into the zero matrix is the plain sum. The 50 blocks tile the output array (row r lies in the block
  of point r / 2000), so the array ends as the projection of every row.
-/
import proofs.«165152_j3324304687696_1_alg».proof.Proof.Gen.KernelIdeal.Frame
import proofs.«165152_j3324304687696_1_alg».proof.Proof.Spec
import proofs.«165152_j3324304687696_1_alg».proof.Proof.LibPlainMatmul
import Idealize.ShloMosaic.Lib.Pipeline.Value
import Idealize.ShloMosaic.Lib.ValueIdx
import Idealize.ShloMosaic.PureOps.Ideal.Laws

noncomputable section
open scoped BigOperators
open Idealize.ShloMosaic Idealize.ShloMosaic.TcCoe Idealize.ShloMosaic.ValueIdx Idealize.SL.Sem
open Cert.KernelIdeal Cert.KernelIdeal.Gen

namespace Cert.KernelIdeal.Region0

/-- One entry of the block the body writes: the projected row's entry. -/
theorem pay_apply (x0 : Vec Ideal S2000x128 .f32) (x1 : Vec Ideal S128x128 .f32) (x2 : Vec Ideal S1x128 .f32) (p : Fin 2000) (j : Fin 128) :
    k0_pay1 x0 x1 x2 (ix2 p j) = Cert.Spec.projRow (Cert.Spec.rowOf x0 p) x1 (fun k => x2 (ix2 (0 : Fin 1) k)) j := by
  unfold k0_pay1 Cert.Spec.projRow Cert.Spec.affRow
  dsimp only
  rw [maximumf_apply, addf_apply, broadcast_apply, shapeCast_self]
  have hm := Cert.Lib.PlainMatmul.apply dot_S2000x128_S128x128_S2000x128_1_0_0_1_n_n rfl rfl rfl rfl rfl rfl none
    (truncf .bf16 x0 bitsLt_bf16_f32) (truncf .bf16 x1 bitsLt_bf16_f32) p j
  have hb := Cert.Lib.PlainMatmul.rowSpread_apply x2 broadcasts_S1x128_S2000x128 p j
  exact congrArg₂ max (congrArg₂ (· + ·) (hm.trans rfl) hb) rfl

variable (V : (c : Dev nD) → (b : Ref sig .tc) → Buf (Elt Ideal) ((c : Thread nD τ).loc b))

/-- The array the region leaves: the projection of every row of the features it is entered with. -/
abbrev projected (c : Dev nD) : S100000x128.Idx → EReal :=
  Cert.Spec.projArr (V c main_arg0) (V c main_arg2) (fun k => V c main_v0 (ix2 (0 : Fin 1) k))

theorem zero_offsets : (![0, 0] : Fin 2 → Nat) = fun _ => 0 := funext fun a => by fin_cases a <;> rfl

/-- Where each window's block sits at point t: the features and the output move down the rows together, the weights
    and the bias stay at the origin, and the output never leaves column block 0. -/
theorem block_places : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row block is some point's. -/
theorem block_of_row : ∀ q : Fin 50, ∃ t : Fin cfg0.N, win0_3.index t = ![q.val, 0] :=
  (by decide +kernel : ∀ q : Fin 50, ∃ t : Fin grid0.N, win0_3.index t = ![q.val, 0])

/-- What point t writes back is its block of the projected array. -/
theorem written_eq (c : Dev nD) (t : Fin cfg0.N) :
    (dat0 (F := Ideal) V c).flushed 3 t = ((cfg0.win 3).blk t).view.read (Elt Ideal) (projected V c) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S128x128) zero_offsets,
    View.ld_unit_zero (S := S1x128) zero_offsets]
  obtain ⟨e0, e1, e2, e3, e4, e5, e6⟩ := block_places t
  funext y
  obtain ⟨p, j, rfl⟩ : ∃ (p : Fin 2000) (j : Fin 128), y = ix2 p j := ⟨y 0, y 1, eq_ix2 y⟩
  show k0_pay1 (iblk0 V c 0 t) (iblk0 V c 1 t) (iblk0 V c 2 t) (ix2 p j)
    = projected V c (((cfg0.win 3).blk t).view.emb (ix2 p j))
  rw [pay_apply]
  have hp : p.val < 2000 := p.isLt
  have hj : j.val < 128 := j.isLt
  -- the three blocks read where the output's block says
  have hx : Cert.Spec.rowOf (iblk0 V c 0 t) p
      = Cert.Spec.rowOf (V c main_arg0) ⟨((((cfg0.win 3).blk t).view.emb (ix2 p j)) 0).val, ((((cfg0.win 3).blk t).view.emb (ix2 p j)) 0).isLt⟩ := by
    funext k
    show V c main_arg0 (((cfg0.win 0).blk t).view.emb (ix2 p k)) = V c main_arg0 _
    refine congrArg (V c main_arg0) (funext fun a => Fin.ext ?_)
    have hk : k.val < 128 := k.isLt
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have hw : iblk0 V c 1 t = V c main_arg2 := by
    funext z
    show V c main_arg2 (((cfg0.win 1).blk t).view.emb z) = V c main_arg2 z
    refine congrArg (V c main_arg2) (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  have hb : (fun k : Fin 128 => iblk0 V c 2 t (ix2 (0 : Fin 1) k)) = fun k => V c main_v0 (ix2 (0 : Fin 1) k) := by
    funext k
    show V c main_v0 (((cfg0.win 2).blk t).view.emb (ix2 (0 : Fin 1) k)) = V c main_v0 (ix2 (0 : Fin 1) k)
    refine congrArg (V c main_v0) (funext fun a => Fin.ext ?_)
    have hk : k.val < 128 := k.isLt
    match a with
    | ⟨0, _⟩ => show win0_2.index t (0 : Fin 2) * 1 + 1 * 0 = 0; omega
    | ⟨1, _⟩ => show win0_2.index t (1 : Fin 2) * 128 + 1 * k.val = k.val; omega
  have hcol : (⟨((((cfg0.win 3).blk t).view.emb (ix2 p j)) 1).val, ((((cfg0.win 3).blk t).view.emb (ix2 p j)) 1).isLt⟩ : Fin 128) = j :=
    Fin.ext (by show win0_3.index t (1 : Fin 2) * 128 + 1 * j.val = j.val; omega)
  rw [hx, hw, hb]
  show _ = Cert.Spec.projRow _ _ _ _
  rw [hcol]

/-- An index of the output array is in point t's block iff each coordinate is in the block's range on its axis. -/
theorem mem_block (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- The blocks tile the array: row r lies in the block of row block r / 2000. -/
theorem tiled (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := block_of_row ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the region: the projection of every row. -/
theorem region0 (c : Dev nD) :
    (dat0 (F := Ideal) V c).arrAt 3 cfg0.N
      = Cert.Spec.projArr (V c main_arg0) (V c main_arg2) (fun k => V c main_v0 (ix2 (0 : Fin 1) k)) :=
  (dat0 (F := Ideal) V c).arrAt_eq_of_cover 3 (projected V c) (fun t _ => written_eq V c t) (tiled)

end Cert.KernelIdeal.Region0
end
-- ==== Proof.Region1Value.lean ====
/-
  The classifier region as one function of the arrays it is entered with.

  The region visits 50 points; at point t it reads rows 2000·t … 2000·t + 1999 of the aggregated array and of the
  projected array, the two 128 × 128 weight matrices with the bias row between them, the 128 × 6 classifier matrix and
  its bias row, and writes rows 2000·t … 2000·t + 1999 of the logits. The body works in three steps on a block of 2000 rows.
  The combined block o has entry (p, j) = (Σₖ a(p, k) · Wl(k, j) + bl(0, j)) + Σₖ x(p, k) · Wr(k, j). The hidden block
  divides row p of o by max(√(Σⱼ o(p, j)²), ε) and clamps at 0 from below: the sum of squares runs along the row, is set
  as a column of 2000 entries and spread back along the 128 columns. The logits are h · Wf + bf. The format changes are the
  identity on the extended reals and each matrix product into the zero matrix is the plain sum. The 50 blocks tile the
  output array (row r lies in the block of point r / 2000), so the array ends as the logits of every row.
-/
import proofs.«165152_j3324304687696_1_alg».proof.Proof.Gen.KernelIdeal.Frame
import proofs.«165152_j3324304687696_1_alg».proof.Proof.Spec
import proofs.«165152_j3324304687696_1_alg».proof.Proof.LibPlainMatmul
import Idealize.ShloMosaic.Lib.Pipeline.Value
import Idealize.ShloMosaic.Lib.ValueIdx
import Idealize.ShloMosaic.PureOps.Ideal.Laws

noncomputable section
open scoped BigOperators
open Idealize.ShloMosaic Idealize.ShloMosaic.TcCoe Idealize.ShloMosaic.ValueIdx Idealize.SL.Sem
open Cert.KernelIdeal Cert.KernelIdeal.Gen

namespace Cert.KernelIdeal.Region1

/-! ## The body's three steps, each as a function of blocks -/

/-- The combined block: (a · Wl + bl) + x · Wr. -/
def combined (a x : Vec Ideal S2000x128 .f32) (Wl Wr : Vec Ideal S128x128 .f32) (bl : Vec Ideal S1x128 .f32) :
    FVec Ideal S2000x128 .f32 :=
  addf
    (addf
      (matmul dot_S2000x128_S128x128_S2000x128_1_0_0_1_n_n none
        (truncf .bf16 (shapeCast S2000x128 a shapeCasts_S2000x128_S2000x128) bitsLt_bf16_f32) (truncf .bf16 Wl bitsLt_bf16_f32)
        (constant S2000x128 .f32 0x00000000#32))
      (broadcastTo S2000x128 (shapeCast S1x128 bl shapeCasts_S1x128_S1x128) broadcasts_S1x128_S2000x128))
    (matmul dot_S2000x128_S128x128_S2000x128_1_0_0_1_n_n none
      (truncf .bf16 (shapeCast S2000x128 x shapeCasts_S2000x128_S2000x128) bitsLt_bf16_f32) (truncf .bf16 Wr bitsLt_bf16_f32)
      (constant S2000x128 .f32 0x00000000#32))

/-- The sums of squares along the rows: Σⱼ o(p, j)² at p. -/
def rowSquares (o : FVec Ideal S2000x128 .f32) : FVec Ideal S2000 .f32 :=
  multiReduction (F := Ideal) .add [1] S2000 (mulf o o) 0x00000000#32 reduces_S2000x128_S2000 (.inl rfl) rfl

/-- The column of row norms, floored at ε: max(√(Σⱼ o(p, j)²), ε) at (p, 0). -/
def normColumn (o : FVec Ideal S2000x128 .f32) : FVec Ideal S2000x1 .f32 :=
  maximumf (sqrt (shapeCast S2000x1 (rowSquares o) shapeCasts_S2000_S2000x1))
    (broadcast S2000x1 (Scalar.ofBits (F := Ideal) .f32 0x2B8CBCCC#32))

/-- The hidden block: each row of o over its floored norm, clamped at 0 from below. -/
def hidden (o : FVec Ideal S2000x128 .f32) : FVec Ideal S2000x128 .f32 :=
  maximumf (divf o (broadcastTo S2000x128 (normColumn o) broadcasts_S2000x1_S2000x128))
    (broadcast S2000x128 (Scalar.ofBits (F := Ideal) .f32 0x00000000#32))

/-- The logits block: h · Wf + bf. -/
def logits (h : FVec Ideal S2000x128 .f32) (Wf : Vec Ideal S128x6 .f32) (bf : Vec Ideal S1x6 .f32) : FVec Ideal S2000x6 .f32 :=
  addf
    (matmul dot_S2000x128_S128x6_S2000x6_1_0_0_1_n_n none (truncf .bf16 h bitsLt_bf16_f32) (truncf .bf16 Wf bitsLt_bf16_f32)
      (constant S2000x6 .f32 0x00000000#32))
    (broadcastTo S2000x6 (shapeCast S1x6 bf shapeCasts_S1x6_S1x6) broadcasts_S1x6_S2000x6)

/-- The body's payload is the three steps in a row (its arguments in load order: a, x, Wl, Wr, bl, Wf, bf). -/
theorem pay_eq (a x : Vec Ideal S2000x128 .f32) (Wl Wr : Vec Ideal S128x128 .f32) (bl : Vec Ideal S1x128 .f32)
    (Wf : Vec Ideal S128x6 .f32) (bf : Vec Ideal S1x6 .f32) :
    k1_pay1 a x Wl Wr bl Wf bf = logits (hidden (combined a x Wl Wr bl)) Wf bf := rfl

/-! ## Each step at one entry -/

/-- The combined block at (p, j): entry j of the combined row of rows p. -/
theorem combined_apply (a x : Vec Ideal S2000x128 .f32) (Wl Wr : Vec Ideal S128x128 .f32) (bl : Vec Ideal S1x128 .f32)
    (p : Fin 2000) (j : Fin 128) :
    combined a x Wl Wr bl (ix2 p j)
      = Cert.Spec.combRow (Cert.Spec.rowOf a p) (Cert.Spec.rowOf x p) Wl (fun k => bl (ix2 (0 : Fin 1) k)) Wr j := by
  unfold combined Cert.Spec.combRow Cert.Spec.affRow
  simp only [shapeCast_self]
  rw [addf_apply, addf_apply]
  have hl := Cert.Lib.PlainMatmul.apply dot_S2000x128_S128x128_S2000x128_1_0_0_1_n_n rfl rfl rfl rfl rfl rfl none
    (truncf .bf16 a bitsLt_bf16_f32) (truncf .bf16 Wl bitsLt_bf16_f32) p j
  have hr := Cert.Lib.PlainMatmul.apply dot_S2000x128_S128x128_S2000x128_1_0_0_1_n_n rfl rfl rfl rfl rfl rfl none
    (truncf .bf16 x bitsLt_bf16_f32) (truncf .bf16 Wr bitsLt_bf16_f32) p j
  have hb := Cert.Lib.PlainMatmul.rowSpread_apply bl broadcasts_S1x128_S2000x128 p j
  exact congrArg₂ (· + ·) (congrArg₂ (· + ·) (hl.trans rfl) hb) (hr.trans rfl)

/-- The index over row p with column k put back on the summed axis is (p, k). -/
theorem lift_row (p : Fin 2000) (k : Fin 128) : reduces_S2000x128_S2000.lift (ix1 p) k = ix2 p k :=
  funext fun a => Fin.ext (by match a with | ⟨0, _⟩ => rfl | ⟨1, _⟩ => rfl)

/-- The sum of squares at p runs over row p. -/
theorem rowSquares_apply (o : FVec Ideal S2000x128 .f32) (p : Fin 2000) :
    rowSquares o (ix1 p) = ∑ j : Fin 128, Cert.Spec.rowOf o p j * Cert.Spec.rowOf o p j := by
  unfold rowSquares
  refine (Ideal.multiReduction_add_single (mulf o o) _ reduces_S2000x128_S2000 (.inl rfl) rfl (ix1 p)).trans ?_
  exact Finset.sum_congr rfl fun k _ => (congrArg (mulf o o) (lift_row p k)).trans rfl

/-- A vector of 2000 entries set as a column reads entry p at (p, 0): the two row-major positions are both p. -/
theorem column_apply {α : Type} (v : S2000.Idx → α) (p : Fin 2000) :
    shapeCast S2000x1 v shapeCasts_S2000_S2000x1 (ix2 p (0 : Fin 1)) = v (ix1 p) :=
  shapeCast_apply v shapeCasts_S2000_S2000x1 (ix2 p (0 : Fin 1)) (ix1 p) (by
    rw [Shape.rowMajor_val_one, Shape.rowMajor_val_two]
    show p.val = p.val * 1 + 0
    omega)

/-- A column of 2000 entries spread along 128 columns reads (p, 0) at (p, j). -/
theorem columnSpread_apply {α : Type} (v : S2000x1.Idx → α) (p : Fin 2000) (j : Fin 128) :
    broadcastTo S2000x128 v broadcasts_S2000x1_S2000x128 (ix2 p j) = v (ix2 p (0 : Fin 1)) :=
  broadcastTo_apply v broadcasts_S2000x1_S2000x128 (ix2 p j) (ix2 p (0 : Fin 1)) fun a => by
    match a with
    | ⟨0, _⟩ => rfl
    | ⟨1, _⟩ => rfl

/-- The norm column at (p, 0): the floored norm of row p. -/
theorem normColumn_apply (o : FVec Ideal S2000x128 .f32) (p : Fin 2000) :
    normColumn o (ix2 p (0 : Fin 1)) = Cert.Spec.normRow (Cert.Spec.rowOf o p) := by
  unfold normColumn Cert.Spec.normRow
  rw [maximumf_apply, broadcast_apply]
  exact congrArg₂ max (congrArg Ideal.sqrt ((column_apply (rowSquares o) p).trans (rowSquares_apply o p))) rfl

/-- The hidden block at (p, j): entry j of the normalised, clamped row p. -/
theorem hidden_apply (o : FVec Ideal S2000x128 .f32) (p : Fin 2000) (j : Fin 128) :
    hidden o (ix2 p j) = Cert.Spec.hidRow (Cert.Spec.rowOf o p) j := by
  unfold hidden Cert.Spec.hidRow
  rw [maximumf_apply, divf_apply, broadcast_apply, columnSpread_apply, normColumn_apply]
  rfl

/-- The logits block at (p, q): class q of row p. -/
theorem logits_apply (h : FVec Ideal S2000x128 .f32) (Wf : Vec Ideal S128x6 .f32) (bf : Vec Ideal S1x6 .f32)
    (p : Fin 2000) (q : Fin 6) :
    logits h Wf bf (ix2 p q) = Cert.Spec.affRow (Cert.Spec.rowOf h p) Wf (fun q => bf (ix2 (0 : Fin 1) q)) q := by
  unfold logits Cert.Spec.affRow
  simp only [shapeCast_self]
  rw [addf_apply]
  have hm := Cert.Lib.PlainMatmul.apply dot_S2000x128_S128x6_S2000x6_1_0_0_1_n_n rfl rfl rfl rfl rfl rfl none
    (truncf .bf16 h bitsLt_bf16_f32) (truncf .bf16 Wf bitsLt_bf16_f32) p q
  have hb := Cert.Lib.PlainMatmul.rowSpread_apply bf broadcasts_S1x6_S2000x6 p q
  exact congrArg₂ (· + ·) (hm.trans rfl) hb

/-- One entry of the block the body writes: class q of the node whose two rows are rows p of the blocks. -/
theorem pay_apply (a x : Vec Ideal S2000x128 .f32) (Wl Wr : Vec Ideal S128x128 .f32) (bl : Vec Ideal S1x128 .f32)
    (Wf : Vec Ideal S128x6 .f32) (bf : Vec Ideal S1x6 .f32) (p : Fin 2000) (q : Fin 6) :
    k1_pay1 a x Wl Wr bl Wf bf (ix2 p q)
      = Cert.Spec.clsRow (Cert.Spec.rowOf a p) (Cert.Spec.rowOf x p) Wl (fun k => bl (ix2 (0 : Fin 1) k)) Wr Wf
          (fun q => bf (ix2 (0 : Fin 1) q)) q := by
  have ho : Cert.Spec.rowOf (combined a x Wl Wr bl) p
      = Cert.Spec.combRow (Cert.Spec.rowOf a p) (Cert.Spec.rowOf x p) Wl (fun k => bl (ix2 (0 : Fin 1) k)) Wr :=
    funext fun j => combined_apply a x Wl Wr bl p j
  have hh : Cert.Spec.rowOf (hidden (combined a x Wl Wr bl)) p
      = Cert.Spec.hidRow (Cert.Spec.combRow (Cert.Spec.rowOf a p) (Cert.Spec.rowOf x p) Wl (fun k => bl (ix2 (0 : Fin 1) k)) Wr) :=
    funext fun j => (hidden_apply (combined a x Wl Wr bl) p j).trans (by rw [ho])
  rw [pay_eq, logits_apply, hh]
  rfl

/-! ## From the blocks to the array -/

variable (V : (c : Dev nD) → (b : Ref sig .tc) → Buf (Elt Ideal) ((c : Thread nD τ).loc b))

/-- The array the region leaves: the logits of every row of the two arrays it is entered with. -/
abbrev classified (c : Dev nD) : S100000x6.Idx → EReal :=
  Cert.Spec.clsArr (V c main_v23) (V c main_v1) (V c main_arg4) (fun k => V c main_v24 (ix2 (0 : Fin 1) k))
    (V c main_arg6) (V c main_arg7) (fun q => V c main_v25 (ix2 (0 : Fin 1) q))

theorem origin : (![0, 0] : Fin 2 → Nat) = fun _ => 0 := funext fun a => by fin_cases a <;> rfl

/-- Where each window's block sits at point t: the two row arrays and the logits move down the rows together, the
    weight matrices and the bias rows stay at the origin, and no block leaves column block 0. -/
theorem block_places : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 :=
  (by decide +kernel : ∀ t : Fin grid1.N, _)

/-- Every row block is some point's. -/
theorem block_of_row : ∀ b : Fin 50, ∃ t : Fin cfg1.N, win1_7.index t = ![b.val, 0] :=
  (by decide +kernel : ∀ b : Fin 50, ∃ t : Fin grid1.N, win1_7.index t = ![b.val, 0])

/-- What point t writes back is its block of the classified array. -/
theorem written_eq (c : Dev nD) (t : Fin cfg1.N) :
    (dat1 (F := Ideal) V c).flushed 7 t = ((cfg1.win 7).blk t).view.read (Elt Ideal) (classified V c) := by
  show (cfg1.win 7).cut (grid1.coords t) ((dat1 V c).after 7 t) = _
  rw [after1_7]
  unfold out1_7
  rw [View.canon_unit_zero origin]
  simp only [View.ld_unit_zero (S := S2000x128) origin, View.ld_unit_zero (S := S128x128) origin,
    View.ld_unit_zero (S := S1x128) origin, View.ld_unit_zero (S := S128x6) origin, View.ld_unit_zero (S := S1x6) origin]
  obtain ⟨e0, e1, e2, e3, e4, e5, e6, e7, e8, e9, e10, e11, e12, e13, e14⟩ := block_places t
  funext y
  obtain ⟨p, q, rfl⟩ : ∃ (p : Fin 2000) (q : Fin 6), y = ix2 p q := ⟨y 0, y 1, eq_ix2 y⟩
  show k1_pay1 (iblk1 V c 0 t) (iblk1 V c 1 t) (iblk1 V c 2 t) (iblk1 V c 4 t) (iblk1 V c 3 t) (iblk1 V c 5 t) (iblk1 V c 6 t) (ix2 p q)
    = classified V c (((cfg1.win 7).blk t).view.emb (ix2 p q))
  rw [pay_apply]
  have hp : p.val < 2000 := p.isLt
  have hq : q.val < 6 := q.isLt
  -- the two row blocks read the rows the output's block names
  have ha : Cert.Spec.rowOf (iblk1 V c 0 t) p
      = Cert.Spec.rowOf (V c main_v23) ⟨((((cfg1.win 7).blk t).view.emb (ix2 p q)) 0).val, ((((cfg1.win 7).blk t).view.emb (ix2 p q)) 0).isLt⟩ := by
    funext k
    show V c main_v23 (((cfg1.win 0).blk t).view.emb (ix2 p k)) = V c main_v23 _
    refine congrArg (V c main_v23) (funext fun a => Fin.ext ?_)
    have hk : k.val < 128 := k.isLt
    match a with
    | ⟨0, _⟩ => show win1_0.index t (0 : Fin 2) * 2000 + 1 * p.val = win1_7.index t (0 : Fin 2) * 2000 + 1 * p.val; omega
    | ⟨1, _⟩ => show win1_0.index t (1 : Fin 2) * 128 + 1 * k.val = k.val; omega
  have hx : Cert.Spec.rowOf (iblk1 V c 1 t) p
      = Cert.Spec.rowOf (V c main_v1) ⟨((((cfg1.win 7).blk t).view.emb (ix2 p q)) 0).val, ((((cfg1.win 7).blk t).view.emb (ix2 p q)) 0).isLt⟩ := by
    funext k
    show V c main_v1 (((cfg1.win 1).blk t).view.emb (ix2 p k)) = V c main_v1 _
    refine congrArg (V c main_v1) (funext fun a => Fin.ext ?_)
    have hk : k.val < 128 := k.isLt
    match a with
    | ⟨0, _⟩ => show win1_1.index t (0 : Fin 2) * 2000 + 1 * p.val = win1_7.index t (0 : Fin 2) * 2000 + 1 * p.val; omega
    | ⟨1, _⟩ => show win1_1.index t (1 : Fin 2) * 128 + 1 * k.val = k.val; omega
  -- the weights and the bias rows are read whole
  have hWl : iblk1 V c 2 t = V c main_arg4 := by
    funext z
    show V c main_arg4 (((cfg1.win 2).blk t).view.emb z) = V c main_arg4 z
    refine congrArg (V c main_arg4) (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  have hbl : (fun k : Fin 128 => iblk1 V c 3 t (ix2 (0 : Fin 1) k)) = fun k => V c main_v24 (ix2 (0 : Fin 1) k) := by
    funext k
    show V c main_v24 (((cfg1.win 3).blk t).view.emb (ix2 (0 : Fin 1) k)) = V c main_v24 (ix2 (0 : Fin 1) k)
    refine congrArg (V c main_v24) (funext fun a => Fin.ext ?_)
    have hk : k.val < 128 := k.isLt
    match a with
    | ⟨0, _⟩ => show win1_3.index t (0 : Fin 2) * 1 + 1 * 0 = 0; omega
    | ⟨1, _⟩ => show win1_3.index t (1 : Fin 2) * 128 + 1 * k.val = k.val; omega
  have hWr : iblk1 V c 4 t = V c main_arg6 := by
    funext z
    show V c main_arg6 (((cfg1.win 4).blk t).view.emb z) = V c main_arg6 z
    refine congrArg (V c main_arg6) (funext fun a => Fin.ext ?_)
    match a with
    | ⟨0, _⟩ => show win1_4.index t (0 : Fin 2) * 128 + 1 * (z 0).val = (z 0).val; omega
    | ⟨1, _⟩ => show win1_4.index t (1 : Fin 2) * 128 + 1 * (z 1).val = (z 1).val; omega
  have hWf : iblk1 V c 5 t = V c main_arg7 := by
    funext z
    show V c main_arg7 (((cfg1.win 5).blk t).view.emb z) = V c main_arg7 z
    refine congrArg (V c main_arg7) (funext fun a => Fin.ext ?_)
    match a with
    | ⟨0, _⟩ => show win1_5.index t (0 : Fin 2) * 128 + 1 * (z 0).val = (z 0).val; omega
    | ⟨1, _⟩ => show win1_5.index t (1 : Fin 2) * 6 + 1 * (z 1).val = (z 1).val; omega
  have hbf : (fun r : Fin 6 => iblk1 V c 6 t (ix2 (0 : Fin 1) r)) = fun r => V c main_v25 (ix2 (0 : Fin 1) r) := by
    funext r
    show V c main_v25 (((cfg1.win 6).blk t).view.emb (ix2 (0 : Fin 1) r)) = V c main_v25 (ix2 (0 : Fin 1) r)
    refine congrArg (V c main_v25) (funext fun a => Fin.ext ?_)
    have hr : r.val < 6 := r.isLt
    match a with
    | ⟨0, _⟩ => show win1_6.index t (0 : Fin 2) * 1 + 1 * 0 = 0; omega
    | ⟨1, _⟩ => show win1_6.index t (1 : Fin 2) * 6 + 1 * r.val = r.val; omega
  have hcol : (⟨((((cfg1.win 7).blk t).view.emb (ix2 p q)) 1).val, ((((cfg1.win 7).blk t).view.emb (ix2 p q)) 1).isLt⟩ : Fin 6) = q :=
    Fin.ext (by show win1_7.index t (1 : Fin 2) * 6 + 1 * q.val = q.val; omega)
  rw [ha, hx, hWl, hbl, hWr, hWf, hbf]
  show _ = Cert.Spec.clsRow _ _ _ _ _ _ _ _
  rw [hcol]

/-- An index of the logits array is in point t's block iff each coordinate is in the block's range on its axis. -/
theorem mem_block (t : Fin cfg1.N) (i : S100000x6.Idx) :
    i ∈ ((cfg1.win 7).blk t).view.set ↔ ∀ a : Fin 2, win1_7.index t a * S2000x6.size a ≤ (i a).val ∧ (i a).val < win1_7.index t a * S2000x6.size a + S2000x6.size a := by
  show i ∈ ((View.whole main_v26).slice (win1_7.rect t)).set ↔ _
  rw [View.set_slice_whole, Rect.mem_set_unit]
  exact Iff.rfl

/-- The blocks tile the array: row r lies in the block of row block r / 2000. -/
theorem tiled (i : S100000x6.Idx) : ∃ t : Fin cfg1.N, (cfg1.win 7).flush t = true ∧ i ∈ ((cfg1.win 7).blk t).view.set := by
  have hi0 : (i 0).val < 100000 := (i 0).isLt
  have hi1 : (i 1).val < 6 := (i 1).isLt
  obtain ⟨t, ht⟩ := block_of_row ⟨(i 0).val / 2000, by omega⟩
  have b0 : win1_7.index t (0 : Fin 2) = (i 0).val / 2000 := congrFun ht 0
  have b1 : win1_7.index t (1 : Fin 2) = 0 := congrFun ht 1
  refine ⟨t, flush1_7 t, ?_⟩
  rw [mem_block]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 6 ≤ (i 1).val ∧ (i 1).val < win1_7.index t (1 : Fin 2) * 6 + 6; omega

/-- The logits array after the region: the logits of every row. -/
theorem region1 (c : Dev nD) :
    (dat1 (F := Ideal) V c).arrAt 7 cfg1.N
      = Cert.Spec.clsArr (V c main_v23) (V c main_v1) (V c main_arg4) (fun k => V c main_v24 (ix2 (0 : Fin 1) k))
          (V c main_arg6) (V c main_arg7) (fun q => V c main_v25 (ix2 (0 : Fin 1) q)) :=
  (dat1 (F := Ideal) V c).arrAt_eq_of_cover 7 (classified V c) (fun t _ => written_eq V c t) (tiled)

end Cert.KernelIdeal.Region1
end
-- ==== Proof.RefValue.lean ====
/-
  The reference program read as the network's row functions.

  Its first five operations are the projection of every row; the operations from the edge slices to the division by the
  clamped in-degree are the mean over incoming edges, carried here as ONE function `mid` of the projected rows and the
  edge list, never opened (the other program applies the same operations); the rest is, row by row, the combination,
  the division by max(ε, ‖o‖₂) (the maximum's arguments in the other order, which is the same maximum), the clamp and the
  classifier. The row sum of squares starts from the zero word, which is the real 0.
-/
import proofs.«165152_j3324304687696_1_alg».proof.Proof.Gen.ReferenceIdeal.Read
import proofs.«165152_j3324304687696_1_alg».proof.Proof.Spec

noncomputable section
open scoped BigOperators
open Idealize.ShloMosaic Idealize.ShloMosaic.TcCoe Idealize.ShloMosaic.ValueIdx Idealize.SL.Sem
open Cert.ReferenceIdeal Cert.ReferenceIdeal.Gen

namespace Cert.ReferenceIdeal.RefValue

/-- The shared middle of both programs: from the projected rows and the edge list to the mean of each node's incoming rows. -/
def mid (xp : FVec Ideal S100000x128 .f32) (ei : IVec S2x1600000 32) : FVec Ideal S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (shapeCast _ (extractStridedSlice S1x1600000 ![1, 0] ei slices_S2x1600000_S1x1600000_1_0) shapeCasts_S1x1600000_S1600000))
      (Host.gather gather_S100000x128_S1600000x1_S1600000x128_1_0_n_n_0_1_1128 xp
        (broadcastInDim S1600000x1 ![0] bcast_S1600000_S1600000x1_0
          (select (cmpi .slt (shapeCast _ (extractStridedSlice S1x1600000 ![0, 0] ei slices_S2x1600000_S1x1600000_0_0) shapeCasts_S1x1600000_S1600000) (broadcastInDim S1600000 ![] bcast_S_S1600000 (constantI S_ 32 0#32)))
            (addi (shapeCast _ (extractStridedSlice S1x1600000 ![0, 0] ei slices_S2x1600000_S1x1600000_0_0) shapeCasts_S1x1600000_S1600000) (broadcastInDim S1600000 ![] bcast_S_S1600000 (constantI S_ 32 100000#32)))
            (shapeCast _ (extractStridedSlice S1x1600000 ![0, 0] ei slices_S2x1600000_S1x1600000_0_0) shapeCasts_S1x1600000_S1600000)))))
    (broadcastInDim S100000x128 ![0, 1] bcast_S100000x1_S100000x128_0_1
      (broadcastInDim S100000x1 ![0] bcast_S100000_S100000x1_0
        (maximumf (broadcastInDim S100000 ![] bcast_S_S100000 (id (constant S_ .f32 0x3F800000#32)))
          (Host.scatterAdd scatter_S100000_S1600000x1_S1600000_n_0_0_1
            (broadcastInDim S100000 ![] bcast_S_S100000 (constant S_ .f32 0x00000000#32))
            (broadcastInDim S1600000x1 ![0] bcast_S1600000_S1600000x1_0 (shapeCast _ (extractStridedSlice S1x1600000 ![1, 0] ei slices_S2x1600000_S1x1600000_1_0) shapeCasts_S1x1600000_S1600000))
            (broadcastInDim S1600000 ![] bcast_S_S1600000 (constant S_ .f32 0x3F800000#32))))))

theorem mid_eq (x0 : FVec Ideal S100000x128 .f32) (x1 : IVec S2x1600000 32) (x2 : FVec Ideal S128x128 .f32) (x3 : FVec Ideal S128 .f32) :
    Read.val_main_v26 (F := Ideal) x0 x1 x2 x3 = mid (Read.val_main_v4 (F := Ideal) x0 x2 x3) x1 := rfl

theorem proj_eq (x0 : FVec Ideal S100000x128 .f32) (x2 : FVec Ideal S128x128 .f32) (x3 : FVec Ideal S128 .f32) :
    Read.val_main_v4 (F := Ideal) x0 x2 x3 = Cert.Spec.projArr x0 x2 (fun k => x3 (ix1 k)) := by
  funext i
  obtain ⟨r, j, rfl⟩ : ∃ (r : Fin 100000) (j : Fin 128), i = ix2 r j :=
    ⟨⟨(i 0).val, (i 0).isLt⟩, ⟨(i 1).val, (i 1).isLt⟩, funext fun a => by match a with | ⟨0, _⟩ => rfl | ⟨1, _⟩ => rfl⟩
  have hl : ∀ k : Fin 128, Read.lidx_main_v0 (ix2 r j) k = ix2 r k := fun k =>
    funext fun a => Fin.ext (by match a with | ⟨0, _⟩ => rfl | ⟨1, _⟩ => rfl)
  have hr : ∀ k : Fin 128, Read.ridx_main_v0 (ix2 r j) k = ix2 k j := fun k =>
    funext fun a => Fin.ext (by match a with | ⟨0, _⟩ => rfl | ⟨1, _⟩ => rfl)
  have hb : Read.idx_main_v1 (Read.idx_main_v2 (ix2 r j)) = ix1 j :=
    funext fun a => Fin.ext (by match a with | ⟨0, _⟩ => rfl)
  rw [Cert.Spec.projArr_apply]
  rw [Read.val_main_v4_apply, Read.val_main_v3_apply, Read.val_main_v0_apply, Read.val_main_v2_apply, Read.val_main_v1_apply,
    Read.val_main_call0_v0_apply, Read.val_main_call0_cst_apply]
  simp only [hl, hr, hb, Ideal.maximumf_def, Ideal.addf_def, Ideal.ofBits_def]
  rfl

/-- The combined row of node r: the mean of its incoming rows times Wl, plus bl, plus its own projected row times Wr.
    The two input arrays stay closed. -/
abbrev combAt (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (r : Fin 100000) : Fin 128 → EReal :=
  Cert.Spec.combRow (Cert.Spec.rowOf (Read.val_main_v26 (F := Ideal) x0 x1 x2 x3) r)
    (Cert.Spec.rowOf (Read.val_main_v4 (F := Ideal) x0 x2 x3) r) x4 (fun k => x5 (ix1 k)) x6

/-- The sum of the two products and the bias, read at row r and column j, is the combined row there. -/
theorem comb_eq (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (r : Fin 100000) (j : Fin 128) :
    Read.val_main_v32 (F := Ideal) x0 x1 x2 x3 x4 x5 x6 (ix2 r j) = combAt x0 x1 x2 x3 x4 x5 x6 r j := by
  have hl27 : ∀ k : Fin 128, Read.lidx_main_v27 (ix2 r j) k = ix2 r k := fun k =>
    funext fun a => Fin.ext (by match a with | ⟨0, _⟩ => rfl | ⟨1, _⟩ => rfl)
  have hr27 : ∀ k : Fin 128, Read.ridx_main_v27 (ix2 r j) k = ix2 k j := fun k =>
    funext fun a => Fin.ext (by match a with | ⟨0, _⟩ => rfl | ⟨1, _⟩ => rfl)
  have hl31 : ∀ k : Fin 128, Read.lidx_main_v31 (ix2 r j) k = ix2 r k := fun k =>
    funext fun a => Fin.ext (by match a with | ⟨0, _⟩ => rfl | ⟨1, _⟩ => rfl)
  have hr31 : ∀ k : Fin 128, Read.ridx_main_v31 (ix2 r j) k = ix2 k j := fun k =>
    funext fun a => Fin.ext (by match a with | ⟨0, _⟩ => rfl | ⟨1, _⟩ => rfl)
  have hb : Read.idx_main_v28 (Read.idx_main_v29 (ix2 r j)) = ix1 j :=
    funext fun a => Fin.ext (by match a with | ⟨0, _⟩ => rfl)
  unfold combAt
  rw [Read.val_main_v32_apply, Read.val_main_v30_apply, Read.val_main_v27_apply, Read.val_main_v29_apply, Read.val_main_v28_apply,
    Read.val_main_v31_apply]
  generalize Read.val_main_v26 (F := Ideal) x0 x1 x2 x3 = A
  generalize Read.val_main_v4 (F := Ideal) x0 x2 x3 = XP
  simp only [hl27, hr27, hl31, hr31, hb, Ideal.addf_def]
  rfl

/-- The divisor of row r: the square root of the row's sum of squares, floored at ε. The sum starts from the zero
    word, which is the real 0; the program takes the maximum with ε on the left, the specification on the right. -/
theorem norm_eq (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (r : Fin 100000) :
    Read.val_main_v34 (F := Ideal) x0 x1 x2 x3 x4 x5 x6 (ix2 r (⟨0, Nat.one_pos⟩ : Fin 1)) = Cert.Spec.normRow (combAt x0 x1 x2 x3 x4 x5 x6 r) := by
  have hs : ∀ k : Fin 128, Read.idx_main_call2_v1 (Read.idx_main_call2_v2 (ix2 r (⟨0, Nat.one_pos⟩ : Fin 1))) k = ix2 r k := fun k =>
    funext fun a => Fin.ext (by match a with | ⟨0, _⟩ => rfl | ⟨1, _⟩ => rfl)
  have hsum : (∑ k : Fin 128, Read.val_main_call2_v0 (F := Ideal) x0 x1 x2 x3 x4 x5 x6
        (Read.idx_main_call2_v1 (Read.idx_main_call2_v2 (ix2 r (⟨0, Nat.one_pos⟩ : Fin 1))) k))
      = ∑ k : Fin 128, combAt x0 x1 x2 x3 x4 x5 x6 r k * combAt x0 x1 x2 x3 x4 x5 x6 r k :=
    Finset.sum_congr rfl fun k _ => by
      rw [hs k, Read.val_main_call2_v0_apply, comb_eq]; rfl
  rw [Read.val_main_v34_apply, Read.val_main_call3_v1_apply, Read.val_main_call3_v0_apply, Read.val_main_cst_4_apply,
    Read.val_main_v33_apply, Read.val_main_call2_v2_apply, Read.val_main_call2_v1_apply, Read.val_main_call2_cst_apply, hsum]
  generalize combAt x0 x1 x2 x3 x4 x5 x6 r = o
  simp only [Ideal.maximumf_def, Ideal.hostUnary_sqrt_def, Ideal.ofBits_def]
  rw [Ideal.ofBits_zero_f32, zero_add, max_comm]
  rfl

/-- The hidden row: the combined row divided by its divisor and clamped at the zero word from below. -/
theorem hid_eq (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (r : Fin 100000) (j : Fin 128) :
    Read.val_main_v37 (F := Ideal) x0 x1 x2 x3 x4 x5 x6 (ix2 r j) = Cert.Spec.hidRow (combAt x0 x1 x2 x3 x4 x5 x6 r) j := by
  have h35 : Read.idx_main_v35 (ix2 r j) = ix2 r (⟨0, Nat.one_pos⟩ : Fin 1) :=
    funext fun a => Fin.ext (by match a with | ⟨0, _⟩ => rfl | ⟨1, _⟩ => rfl)
  rw [Read.val_main_v37_apply, Read.val_main_v36_apply, Read.val_main_v35_apply, h35, norm_eq, comb_eq,
    Read.val_main_call4_v0_apply, Read.val_main_call4_cst_apply]
  generalize combAt x0 x1 x2 x3 x4 x5 x6 r = o
  simp only [Ideal.maximumf_def, Ideal.hostDivf_def, Ideal.ofBits_def]
  rfl

theorem cls_eq (x0 : FVec Ideal S100000x128 .f32) (x1 : IVec S2x1600000 32) (x2 : FVec Ideal S128x128 .f32) (x3 : FVec Ideal S128 .f32)
    (x4 : FVec Ideal S128x128 .f32) (x5 : FVec Ideal S128 .f32) (x6 : FVec Ideal S128x128 .f32) (x7 : FVec Ideal S128x6 .f32) (x8 : FVec Ideal S6 .f32) :
    Read.val_main_v41 (F := Ideal) x0 x1 x2 x3 x4 x5 x6 x7 x8
      = Cert.Spec.clsArr (Read.val_main_v26 (F := Ideal) x0 x1 x2 x3) (Read.val_main_v4 (F := Ideal) x0 x2 x3) x4 (fun k => x5 (ix1 k)) x6 x7 (fun q => x8 (ix1 q)) := by
  funext i
  obtain ⟨r, q, rfl⟩ : ∃ (r : Fin 100000) (q : Fin 6), i = ix2 r q :=
    ⟨⟨(i 0).val, (i 0).isLt⟩, ⟨(i 1).val, (i 1).isLt⟩, funext fun a => by match a with | ⟨0, _⟩ => rfl | ⟨1, _⟩ => rfl⟩
  have hl : ∀ k : Fin 128, Read.lidx_main_v38 (ix2 r q) k = ix2 r k := fun k =>
    funext fun a => Fin.ext (by match a with | ⟨0, _⟩ => rfl | ⟨1, _⟩ => rfl)
  have hr : ∀ k : Fin 128, Read.ridx_main_v38 (ix2 r q) k = ix2 k q := fun k =>
    funext fun a => Fin.ext (by match a with | ⟨0, _⟩ => rfl | ⟨1, _⟩ => rfl)
  have hb : Read.idx_main_v39 (Read.idx_main_v40 (ix2 r q)) = ix1 q :=
    funext fun a => Fin.ext (by match a with | ⟨0, _⟩ => rfl)
  have hsum : (∑ k : Fin 128, Read.val_main_v37 (F := Ideal) x0 x1 x2 x3 x4 x5 x6 (Read.lidx_main_v38 (ix2 r q) k)
        * x7 (Read.ridx_main_v38 (ix2 r q) k))
      = ∑ k : Fin 128, Cert.Spec.hidRow (combAt x0 x1 x2 x3 x4 x5 x6 r) k * x7 (ix2 k q) :=
    Finset.sum_congr rfl fun k _ => by rw [hl k, hr k, hid_eq]
  rw [Cert.Spec.clsArr_apply, Read.val_main_v41_apply, Read.val_main_v38_apply, hsum, Read.val_main_v40_apply,
    Read.val_main_v39_apply, hb]
  simp only [Ideal.addf_def]
  rfl

end Cert.ReferenceIdeal.RefValue
end
-- ==== Proof.lean ====
/-
  The certificate: a two-kernel GraphSAGE layer with a classifier head against its plain reference.

  Both programs compute, for each of the 100000 nodes, the projected row max(x · Wp + bp, 0); from the projected rows and
  the edge list the mean of every node's incoming projected rows (the same chain of host operations in both programs,
  carried as one function and never opened); and from those two rows the logits
  (max(o / max(‖o‖₂, ε), 0)) · Wf + bf with o = (a · Wl + bl) + xr · Wr. The kernel program does the first and the last step
  in two pipelined regions of 50 row blocks each, on operands changed to a narrower float format and back, which on
  the extended reals is the identity; the reference does them as whole-array operations. The two results are the same
  function of the arguments, index by index: no law beyond the commutativity of a maximum and 0 + s = s is used, so the
  finiteness of the inputs is never opened.

  The three frames are the generated ones (the reference's is its generated run with the result dropped); the kernel
  program's run with its result named is the frame's launch read once more at the result array.
-/
import proofs.«165152_j3324304687696_1_alg».proof.Defs
import proofs.«165152_j3324304687696_1_alg».proof.Proof.Gen.Kernel
import proofs.«165152_j3324304687696_1_alg».proof.Proof.Gen.Kernel.Skeleton
import proofs.«165152_j3324304687696_1_alg».proof.Proof.Gen.Kernel.Launch
import proofs.«165152_j3324304687696_1_alg».proof.Proof.Gen.Kernel.Points
import proofs.«165152_j3324304687696_1_alg».proof.Proof.Gen.Kernel.Frame
import proofs.«165152_j3324304687696_1_alg».proof.Proof.Gen.KernelIdeal
import proofs.«165152_j3324304687696_1_alg».proof.Proof.Gen.KernelIdeal.Skeleton
import proofs.«165152_j3324304687696_1_alg».proof.Proof.Gen.KernelIdeal.Launch
import proofs.«165152_j3324304687696_1_alg».proof.Proof.Gen.KernelIdeal.Points
import proofs.«165152_j3324304687696_1_alg».proof.Proof.Gen.KernelIdeal.Frame
import proofs.«165152_j3324304687696_1_alg».proof.Proof.Gen.ReferenceIdeal
import proofs.«165152_j3324304687696_1_alg».proof.Proof.Gen.Pre_finite_inputs
import proofs.«165152_j3324304687696_1_alg».proof.Proof.Gen.ReferenceIdeal.Run
import proofs.«165152_j3324304687696_1_alg».proof.Proof.Gen.ReferenceIdeal.Read
import proofs.«165152_j3324304687696_1_alg».proof.Proof.Spec
import proofs.«165152_j3324304687696_1_alg».proof.Proof.KernelRun
import proofs.«165152_j3324304687696_1_alg».proof.Proof.KernelHost
import proofs.«165152_j3324304687696_1_alg».proof.Proof.Region0Value
import proofs.«165152_j3324304687696_1_alg».proof.Proof.Region1Value
import proofs.«165152_j3324304687696_1_alg».proof.Proof.RefValue
import Idealize.ShloMosaic.Lib.ValueLayout
import Idealize.ShloMosaic.Adequacy
import Idealize.ShloMosaic.Init

noncomputable section

namespace Cert.Proof

open Idealize.ShloMosaic Idealize.ShloMosaic.TcCoe Idealize.ShloMosaic.ValueIdx Idealize.SL.Sem

/-- The middle chain spelt over either program's names is one function. -/
theorem mid_same : Cert.KernelIdeal.HostReads.midK = Cert.ReferenceIdeal.RefValue.mid := rfl

section Kernel
open Cert.KernelIdeal Cert.KernelIdeal.Gen Cert.KernelIdeal.HostReads

variable (m : (ℓ : Loc nD τ sig) → Buf (Elt Ideal) ℓ) (ρ : Dev nD → PrngReg)

/-- The projected rows, from the launch memory. -/
abbrev projected (c : Dev nD) : S100000x128.Idx → EReal :=
  Cert.Spec.projArr (m ((c : Thread nD τ).loc main_arg0)) (m ((c : Thread nD τ).loc main_arg2))
    (fun k => m ((c : Thread nD τ).loc main_arg3) (ix1 k))

/-- The logits, from the launch memory. -/
abbrev logits (c : Dev nD) : S100000x6.Idx → EReal :=
  Cert.Spec.clsArr (Cert.ReferenceIdeal.RefValue.mid (projected m c) (m ((c : Thread nD τ).loc main_arg1))) (projected m c)
    (m ((c : Thread nD τ).loc main_arg4)) (fun k => m ((c : Thread nD τ).loc main_arg5) (ix1 k))
    (m ((c : Thread nD τ).loc main_arg6)) (m ((c : Thread nD τ).loc main_arg7))
    (fun q => m ((c : Thread nD τ).loc main_arg8) (ix1 q))

/-- After the first region the projected rows' array holds the projection of the launch's features. -/
theorem xp_value (c : Dev nD) : V2 m ρ c main_v1 = projected m c := by
  refine (W2_arr m ρ c 3).trans ?_
  rw [Cert.KernelIdeal.Region0.region0 (V1 m ρ) c, V1_x, V1_w, V1_bias]
  refine congrArg (Cert.Spec.projArr _ _) (funext fun k => ?_)
  exact shapeCast_a_1a_apply _ _ _ k

/-- After the second region the result array holds the logits. -/
theorem result_value (c : Dev nD) : W6 m ρ c (Proc.devRef .tc main_v26) = logits m c := by
  refine (W6_arr m ρ c 7).trans ?_
  rw [Cert.KernelIdeal.Region1.region1 (V5 m ρ) c, V5_agg, V5_xp, V5_wl, V5_bl, V5_wr, V5_wf, V5_bf, V2_edges, V2_bl, V2_bf,
    xp_value, mid_same]
  have hbl : (fun k : Fin 128 => shapeCast S1x128 (m ((c : Thread nD τ).loc main_arg5)) shapeCasts_S128_S1x128 (ix2 (0 : Fin 1) k))
      = fun k => m ((c : Thread nD τ).loc main_arg5) (ix1 k) := funext fun k => shapeCast_a_1a_apply _ _ _ k
  have hbf : (fun q : Fin 6 => shapeCast S1x6 (m ((c : Thread nD τ).loc main_arg8)) shapeCasts_S6_S1x6 (ix2 (0 : Fin 1) q))
      = fun q => m ((c : Thread nD τ).loc main_arg8) (ix1 q) := funext fun q => shapeCast_a_1a_apply _ _ _ q
  rw [hbl, hbf]

/-- The kernel program's run: the result at the logits of the launch memory, the arguments unchanged. -/
theorem kernel_run : θ_run defs (onTc (τ := τ) (main (F := Ideal))) ⟨m, fun _ => 0, ρ⟩ (fun r => ∀ c : Dev nD,
      r.2.mem ((c.tc : Thread nD τ).loc main_v26) = logits m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_value m ρ c), (h c).2⟩)
    (Cert.KernelIdeal.Named.run_named (F := Ideal) m ρ)

end Kernel

section Reference
open Cert.ReferenceIdeal Cert.ReferenceIdeal.Gen Cert.ReferenceIdeal.RefValue

/-- The reference's result term is the logits of its arguments. -/
theorem reference_value (m' : (ℓ : Loc nD τ sig) → Buf (Elt Ideal) ℓ) (c : Dev nD) :
    Cert.ReferenceIdeal.Value.res_main_v41 (F := Ideal) m' c
      = Cert.Spec.clsArr
          (mid (Cert.Spec.projArr (m' ((c.tc : Thread nD τ).loc main_arg0)) (m' ((c.tc : Thread nD τ).loc main_arg2)) (fun k => m' ((c.tc : Thread nD τ).loc main_arg3) (ix1 k)))
            (m' ((c.tc : Thread nD τ).loc main_arg1)))
          (Cert.Spec.projArr (m' ((c.tc : Thread nD τ).loc main_arg0)) (m' ((c.tc : Thread nD τ).loc main_arg2)) (fun k => m' ((c.tc : Thread nD τ).loc main_arg3) (ix1 k)))
          (m' ((c.tc : Thread nD τ).loc main_arg4)) (fun k => m' ((c.tc : Thread nD τ).loc main_arg5) (ix1 k))
          (m' ((c.tc : Thread nD τ).loc main_arg6)) (m' ((c.tc : Thread nD τ).loc main_arg7))
          (fun q => m' ((c.tc : Thread nD τ).loc main_arg8) (ix1 q)) := by
  rw [Cert.ReferenceIdeal.Read.val_main_v41_eq, cls_eq, mid_eq, proj_eq]

end Reference

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, the two programs end with the logits of those arguments. -/
theorem algebraic : Cert.algebraic_KernelIdeal_ReferenceIdeal := by
  intro m ρ m' ρ' _ hagree
  refine ⟨fun c => logits m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [reference_value, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
